-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x128 : Shape := ⟨2, ![5000, 128]⟩
abbrev S800000x128 : Shape := ⟨2, ![800000, 128]⟩
abbrev S1x128 : Shape := ⟨2, ![1, 128]⟩
abbrev S5000x1 : Shape := ⟨2, ![5000, 1]⟩
abbrev S50000x64 : Shape := ⟨2, ![50000, 64]⟩
abbrev S5000x64 : Shape := ⟨2, ![5000, 64]⟩
abbrev S800000x64 : Shape := ⟨2, ![800000, 64]⟩
abbrev S1x64 : Shape := ⟨2, ![1, 64]⟩

abbrev nBuf : Space → Nat
  | .hbm => 80
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000, .f32⟩
  | .hbm, ⟨38, _⟩ => ⟨S800000, .f32⟩
  | .hbm, ⟨39, _⟩ => ⟨S800000x1, .f32⟩
  | .hbm, ⟨40, _⟩ => ⟨S_, .f32⟩
  | .hbm, ⟨41, _⟩ => ⟨S50000, .f32⟩
  | .hbm, ⟨42, _⟩ => ⟨S50000, .f32⟩
  | .hbm, ⟨43, _⟩ => ⟨S50000x1, .f32⟩
  | .hbm, ⟨44, _⟩ => ⟨S50000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S800000x128, .f32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S50000x64, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x64, .f32⟩
  | .hbm, ⟨72, _⟩ => ⟨S800000x64, .f32⟩
  | .hbm, ⟨73, _⟩ => ⟨S800000x64, .f32⟩
  | .hbm, ⟨74, _⟩ => ⟨S_, .f32⟩
  | .hbm, ⟨75, _⟩ => ⟨S50000x64, .f32⟩
  | .hbm, ⟨76, _⟩ => ⟨S800000x1, .i32⟩
  | .hbm, ⟨77, _⟩ => ⟨S50000x64, .f32⟩
  | .hbm, ⟨78, _⟩ => ⟨S1x64, .f32⟩
  | .hbm, ⟨79, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_9 : Ref sig .tc := ⟨.hbm, 63, rfl⟩
abbrev main_v46 : Ref sig .tc := ⟨.hbm, 64, rfl⟩
abbrev main_v47 : Ref sig .tc := ⟨.hbm, 65, rfl⟩
abbrev main_c_10 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S800000_S800000x1 : S800000.ShapeCasts S800000x1
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S50000x64.size a
  hwx3_4 : ∀ i : grid3.Coords, EltTy.bits .f32 = 32 ∨ (Rect.block (s := S50000x64) S5000x64.size (cc3_transform_4 i) (hinb3_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v29) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 129
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x64, .f32⟩
  | 5 => ⟨S64, .f32⟩
  | 6 => ⟨S1x800000, .i32⟩
  | 7 => ⟨S800000, .i32⟩
  | 8 => ⟨S1x800000, .i32⟩
  | 9 => ⟨S800000, .i32⟩
  | 10 => ⟨S50000x128, .f32⟩
  | 11 => ⟨S_, .f32⟩
  | 12 => ⟨S800000, .f32⟩
  | 13 => ⟨S_, .f32⟩
  | 14 => ⟨S50000, .f32⟩
  | 15 => ⟨S800000x1, .i32⟩
  | 16 => ⟨S50000, .f32⟩
  | 17 => ⟨S_, .f32⟩
  | 18 => ⟨S50000, .f32⟩
  | 19 => ⟨S50000, .f32⟩
  | 20 => ⟨S50000, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000, .f32⟩
  | 39 => ⟨S800000, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x128, .f32⟩
  | 49 => ⟨S800000x1, .f32⟩
  | 50 => ⟨S800000x128, .f32⟩
  | 51 => ⟨S800000x128, .f32⟩
  | 52 => ⟨S_, .f32⟩
  | 53 => ⟨S50000x128, .f32⟩
  | 54 => ⟨S800000x1, .i32⟩
  | 55 => ⟨S50000x128, .f32⟩
  | 56 => ⟨S_, .f32⟩
  | 57 => ⟨S50000, .f32⟩
  | 58 => ⟨S50000, .f32⟩
  | 59 => ⟨S50000x1, .f32⟩
  | 60 => ⟨S50000x128, .f32⟩
  | 61 => ⟨S50000x128, .f32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S1x800000, .i32⟩
  | 70 => ⟨S800000, .i32⟩
  | 71 => ⟨S1x800000, .i32⟩
  | 72 => ⟨S800000, .i32⟩
  | 73 => ⟨S50000x64, .f32⟩
  | 74 => ⟨S_, .f32⟩
  | 75 => ⟨S800000, .f32⟩
  | 76 => ⟨S_, .f32⟩
  | 77 => ⟨S50000, .f32⟩
  | 78 => ⟨S800000x1, .i32⟩
  | 79 => ⟨S50000, .f32⟩
  | 80 => ⟨S_, .f32⟩
  | 81 => ⟨S50000, .f32⟩
  | 82 => ⟨S50000, .f32⟩
  | 83 => ⟨S50000, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000, .f32⟩
  | 102 => ⟨S800000, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x64, .f32⟩
  | 112 => ⟨S800000x1, .f32⟩
  | 113 => ⟨S800000x64, .f32⟩
  | 114 => ⟨S800000x64, .f32⟩
  | 115 => ⟨S_, .f32⟩
  | 116 => ⟨S50000x64, .f32⟩
  | 117 => ⟨S800000x1, .i32⟩
  | 118 => ⟨S50000x64, .f32⟩
  | 119 => ⟨S_, .f32⟩
  | 120 => ⟨S50000, .f32⟩
  | 121 => ⟨S50000, .f32⟩
  | 122 => ⟨S50000x1, .f32⟩
  | 123 => ⟨S50000x64, .f32⟩
  | 124 => ⟨S50000x64, .f32⟩
  | 125 => ⟨S50000x64, .f32⟩
  | 126 => ⟨S1x64, .f32⟩
  | 127 => ⟨S50000x64, .f32⟩
  | _ => ⟨S50000x128, .f32⟩

abbrev hbmTy0_1 (i : Nat) : BufTy := match i % 128 with
  | 0 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_call0_cst : Ref sig .tc := ⟨.hbm, 66, rfl⟩
abbrev main_call0_v0 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c_12 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_c_14 : Ref sig .tc := ⟨.hbm, 93, rfl⟩
abbrev main_v69 : Ref sig .tc := ⟨.hbm, 94, rfl⟩
abbrev main_v70 : Ref sig .tc := ⟨.hbm, 95, rfl⟩
abbrev main_c_15 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_c_16 : Ref sig .tc := ⟨.hbm, 103, rfl⟩
abbrev main_v77 : Ref sig .tc := ⟨.hbm, 104, rfl⟩
abbrev main_v78 : Ref sig .tc := ⟨.hbm, 105, rfl⟩
abbrev main_c_17 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_18 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_19 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.LibRowOps.lean ====
/-
  Rows of a matrix, read at an index given by coordinates.

  A row-wise normalisation (a softmax, a layer norm) reduces each row of an [a, b] matrix to one number, keeps it as
  a column [a, 1], and broadcasts the column back over the row. Read at (p, c) each of these steps looks at one
  element of its operand, or at the b elements of row p:
  • the views [a, b] ↔ [a, 1, b] and [a] → [a, 1] move no element (the row-major position is unchanged because the
    inserted axis has extent one);
  • a column [a, 1] broadcast to [a, b] reads, at (p, c), the column's entry p;
  • a reduction over axis 1 reads, at p, the b entries (p, 0) … (p, b − 1): their sum, or their maximum folded from the
    initial value.
  The second part is the order fact a row maximum needs: folding max from an initial value gives a result at
  least that value, so taking the maximum with the initial value once more changes nothing.
-/
import Idealize.ShloMosaic.Lib.ValueLayout
import Idealize.ShloMosaic.Lib.ValueIdx
import Idealize.ShloMosaic.PureOps.Ideal.Laws

noncomputable section

namespace RowOps

open Idealize.ShloMosaic Idealize.ShloMosaic.ValueIdx

variable {α : Type}

/-! ## Views that insert or drop a unit axis in the middle or at the end -/

/-- An `[a, b]` array viewed as `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array viewed as `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a]` array viewed as the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## A column broadcast over its rows -/

/-- An `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction along the rows -/

/-- Over result index `p` of a reduction of `[a, b]` along axis 1, the source index with `k` inserted is `(p, k)`. -/
theorem lift_row {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

variable {φ : FTy}

/-- The sum along a row, at the ideal values: entry `p` is the sum of the row's `b` entries. -/
theorem multiReduction_add_row {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ v acc h hφ hacc (ix1 p) = ∑ k : Fin b, v (ix2 p k) := by
  rw [Ideal.multiReduction_add_single]
  exact Finset.sum_congr rfl fun k _ => congrArg v (lift_row h p k)

/-- The maximum along a row, at the ideal values: entry `p` is `max` folded from the accumulator's value over the
    row's `b` entries. -/
theorem multiReduction_max_row {a b : ℕ} (v : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) := by
  rw [Ideal.multiReduction_maximumf_single]
  exact congrArg (Finset.univ.fold max _) (funext fun k => congrArg v (lift_row h p k))

/-- The host's one-operand reduction with a `max` body along a row: the same fold, from the initial value's element. -/
theorem hostReduce_max_row {a b : ℕ} {u : Shape} (v : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf v init h' hu (ix1 p)
      = (Finset.univ : Finset (Fin b)).fold max (init (Shape.Idx.first hu)) (fun k => v (ix2 p k)) := by
  rw [Host.reduce_eq_fold_single FloatOps.maximumf v init h' h hu]
  exact congrArg (Finset.univ.fold max _) (funext fun k => congrArg v (lift_row h p k))

/-! ## The maximum with the initial value, once more -/

/-- A fold of `max` from `c` is at least `c`, so its maximum with `c` is the fold itself. -/
theorem max_fold_max_self {ι β : Type*} [LinearOrder β] (s : Finset ι) (c : β) (f : ι → β) :
    max c (s.fold max c f) = s.fold max c f :=
  max_eq_right ((Finset.le_fold_max c).mpr (Or.inl le_rfl))

end RowOps

end
-- ==== Proof.HostA.lean ====
/-
  What the host operations before the first dense stage leave in the buffers the later stages read, as functions of
  the edge list alone: the two index rows (sources and targets), the per-edge normalisation 1/√(deg src · deg dst)
  kept as a column, and the per-node reciprocal degree kept as a column. Each is the same chain of operations the
  reference applies to the same edge list, so each buffer holds the reference's corresponding stage; a column made by
  a reshape of a vector and one made by broadcasting it along a new unit axis are the same array.
-/
import proofs.«175359_j23003844838068_1_alg».proof.Proof.Gen.KernelIdeal.Frame
import proofs.«175359_j23003844838068_1_alg».proof.Proof.Gen.ReferenceIdeal.Read
import proofs.«175359_j23003844838068_1_alg».proof.Proof.LibRowOps
import Idealize.ShloMosaic.Lib.Pipeline.Value
import Idealize.ShloMosaic.Lib.ValueIdx
import Idealize.ShloMosaic.Lib.StableHlo.Run

set_option maxRecDepth 16384

noncomputable section

namespace Cert.KernelIdeal.HostV

open Cert.KernelIdeal Cert.KernelIdeal.Gen
open Idealize.ShloMosaic Idealize.ShloMosaic.TcCoe Idealize.ShloMosaic.ValueIdx Idealize.SL.Sem Idealize.ShloMosaic.StableHlo
open Cert.ReferenceIdeal.Read

variable (m : (ℓ : Loc nD τ sig) → Buf (Elt Ideal) ℓ) (ρ : Dev nD → PrngReg)

/-- node features -/
abbrev X0 (c : Dev nD) : (⟨S50000x128, .f32⟩ : BufTy).Contents (Elt Ideal) := m ((c : Thread nD τ).loc main_arg0)
/-- the edge list: row 0 the sources, row 1 the targets -/
abbrev X1 (c : Dev nD) : (⟨S2x800000, .i32⟩ : BufTy).Contents (Elt Ideal) := m ((c : Thread nD τ).loc main_arg1)
/-- first layer's weights -/
abbrev X2 (c : Dev nD) : (⟨S128x128, .f32⟩ : BufTy).Contents (Elt Ideal) := m ((c : Thread nD τ).loc main_arg2)
/-- first layer's bias -/
abbrev X3 (c : Dev nD) : (⟨S128, .f32⟩ : BufTy).Contents (Elt Ideal) := m ((c : Thread nD τ).loc main_arg3)
/-- second layer's weights -/
abbrev X4 (c : Dev nD) : (⟨S128x64, .f32⟩ : BufTy).Contents (Elt Ideal) := m ((c : Thread nD τ).loc main_arg4)
/-- second layer's bias -/
abbrev X5 (c : Dev nD) : (⟨S64, .f32⟩ : BufTy).Contents (Elt Ideal) := m ((c : Thread nD τ).loc main_arg5)

/-- A vector of 800000 entries reshaped to a column is the vector broadcast along a new unit axis: both read, at
    (p, 0), entry p. -/
theorem col_cast_eq_bcast {α : Type} (y : S800000.Idx → α) :
    shapeCast S800000x1 y shapeCasts_S800000_S800000x1 = broadcastInDim S800000x1 ![0] bcast_S800000_S800000x1_0 y := by
  funext j
  obtain ⟨p, u, rfl⟩ : ∃ (p : Fin 800000) (u : Fin 1), j = ix2 p u := ⟨j 0, j 1, eq_ix2 j⟩
  rw [RowOps.shapeCast_a_a1_apply]
  exact (broadcastInDim_apply ![0] bcast_S800000_S800000x1_0 y (ix2 p u) (ix1 p) (fun a => match a with
    | ⟨0, _⟩ => by show p.val = if (800000 : Nat) = 1 then 0 else p.val; rw [if_neg (by decide)])).symm

/-! ## After the first host stretch -/

/-- the sources -/
theorem w1_v1 (c : Dev nD) : W1 m ρ c (Proc.devRef .tc main_v1) = val_main_v1 (F := Ideal) (X1 m c) := by
  show StableHlo.after hostOps0 (W0 m ρ c) (Proc.devRef .tc main_v1) = _
  after_results_simp
  rfl

/-- the targets -/
theorem w1_v3 (c : Dev nD) : W1 m ρ c (Proc.devRef .tc main_v3) = val_main_v3 (F := Ideal) (X1 m c) := by
  show StableHlo.after hostOps0 (W0 m ρ c) (Proc.devRef .tc main_v3) = _
  after_results_simp
  rfl

set_option maxHeartbeats 4000000 in
/-- the per-edge normalisation, as the reshaped column -/
theorem w1_v26_cast (c : Dev nD) : W1 m ρ c (Proc.devRef .tc main_v26)
    = shapeCast S800000x1 (val_main_v26 (F := Ideal) (X1 m c)) shapeCasts_S800000_S800000x1 := by
  show StableHlo.after hostOps0 (W0 m ρ c) (Proc.devRef .tc main_v26) = _
  after_results_simp
  unfold val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v3 val_main_v2 val_main_v1 val_main_v0 val_main_c val_main_c_2 val_main_c_3 val_main_c_4 val_main_cst val_main_cst_0 val_main_cst_1
  rfl

/-- the per-edge normalisation is the reference's broadcast column -/
theorem w1_v26 (c : Dev nD) : W1 m ρ c (Proc.devRef .tc main_v26) = val_main_v34 (F := Ideal) (X1 m c) :=
  (w1_v26_cast m ρ c).trans (col_cast_eq_bcast _)

set_option maxHeartbeats 4000000 in
/-- the per-node reciprocal degree, as the reshaped column -/
theorem w1_v29 (c : Dev nD) : W1 m ρ c (Proc.devRef .tc main_v29)
    = shapeCast S50000x1 (val_main_v41 (F := Ideal) (X1 m c)) shapeCasts_S50000_S50000x1 := by
  show StableHlo.after hostOps0 (W0 m ρ c) (Proc.devRef .tc main_v29) = _
  after_results_simp
  unfold val_main_v41 val_main_v40 val_main_cst_8 val_main_v10 val_main_v9 val_main_cst_1 val_main_v8 val_main_v7 val_main_v6 val_main_cst_0 val_main_v5 val_main_cst val_main_v3 val_main_v2
  rfl

/-- argument 0 is not written by the first host stretch -/
theorem w1_arg0 (c : Dev nD) : W1 m ρ c (Proc.devRef .tc main_arg0) = X0 m c := by
  show StableHlo.after hostOps0 (W0 m ρ c) (Proc.devRef .tc main_arg0) = _
  after_results_simp

/-- argument 1 is not written by the first host stretch -/
theorem w1_arg1 (c : Dev nD) : W1 m ρ c (Proc.devRef .tc main_arg1) = X1 m c := by
  show StableHlo.after hostOps0 (W0 m ρ c) (Proc.devRef .tc main_arg1) = _
  after_results_simp

/-- argument 2 is not written by the first host stretch -/
theorem w1_arg2 (c : Dev nD) : W1 m ρ c (Proc.devRef .tc main_arg2) = X2 m c := by
  show StableHlo.after hostOps0 (W0 m ρ c) (Proc.devRef .tc main_arg2) = _
  after_results_simp

/-- argument 3 is not written by the first host stretch -/
theorem w1_arg3 (c : Dev nD) : W1 m ρ c (Proc.devRef .tc main_arg3) = X3 m c := by
  show StableHlo.after hostOps0 (W0 m ρ c) (Proc.devRef .tc main_arg3) = _
  after_results_simp

/-- argument 4 is not written by the first host stretch -/
theorem w1_arg4 (c : Dev nD) : W1 m ρ c (Proc.devRef .tc main_arg4) = X4 m c := by
  show StableHlo.after hostOps0 (W0 m ρ c) (Proc.devRef .tc main_arg4) = _
  after_results_simp

/-- argument 5 is not written by the first host stretch -/
theorem w1_arg5 (c : Dev nD) : W1 m ρ c (Proc.devRef .tc main_arg5) = X5 m c := by
  show StableHlo.after hostOps0 (W0 m ρ c) (Proc.devRef .tc main_arg5) = _
  after_results_simp

end Cert.KernelIdeal.HostV

end
-- ==== Proof.Spec.lean ====
/-
  One graph-convolution layer, apart from its sparse neighbour sum, is two dense whole-array functions over the
  extended reals:
  • the feature transform: entry (i, j) of X·W is the sum over k of X(i, k) · W(k, j) — one sum of 128 products,
    in whatever order or tiling it is formed, since addition of extended reals is commutative and associative;
  • the combination: entry (i, j) is agg(i, j) + h(i, j) · inv(i) + b(j), where inv is a column (one number per
    node, the reciprocal of its degree) and b a row (one number per output feature); after the first layer the
    result is cut off below at zero.
  Both are stated here for the literal extents of the two layers (50000 nodes; 128 → 128 → 64 features), with every
  index written out by coordinates, so that the blocked computation and the whole-array one can each be shown to be
  this function.
-/
import Idealize.ShloMosaic.PureOps.Ideal
import Idealize.ShloMosaic.Lib.ValueIdx

noncomputable section

namespace Cert.Gcn

open Idealize.ShloMosaic Idealize.ShloMosaic.ValueIdx

/-- node features, 128 wide -/
abbrev N128 : Shape := ⟨2, ![50000, 128]⟩
/-- node features, 64 wide -/
abbrev N64 : Shape := ⟨2, ![50000, 64]⟩
/-- one number per node, kept as a column -/
abbrev N1 : Shape := ⟨2, ![50000, 1]⟩
/-- the first layer's weights -/
abbrev W128 : Shape := ⟨2, ![128, 128]⟩
/-- the second layer's weights -/
abbrev W64 : Shape := ⟨2, ![128, 64]⟩
/-- the first layer's bias, kept as a row -/
abbrev B128 : Shape := ⟨2, ![1, 128]⟩
/-- the second layer's bias, kept as a row -/
abbrev B64 : Shape := ⟨2, ![1, 64]⟩

/-- The zero a rectified layer is cut off at: the value of the all-zero word. -/
abbrev zero32 : EReal := Ideal.ofBits .f32 0x00000000#32

/-- X·W for the first layer: entry (i, j) is the sum over k of X(i, k) · W(k, j). -/
def mm128 (X : N128.Idx → EReal) (Wt : W128.Idx → EReal) : N128.Idx → EReal := fun i =>
  ∑ k : Fin 128, X (ix2 (n0 := 50000) (n1 := 128) ⟨(i 0).val, (i 0).isLt⟩ k)
    * Wt (ix2 (n0 := 128) (n1 := 128) k ⟨(i 1).val, (i 1).isLt⟩)

/-- X·W for the second layer: entry (i, j) is the sum over k of X(i, k) · W(k, j). -/
def mm64 (X : N128.Idx → EReal) (Wt : W64.Idx → EReal) : N64.Idx → EReal := fun i =>
  ∑ k : Fin 128, X (ix2 (n0 := 50000) (n1 := 128) ⟨(i 0).val, (i 0).isLt⟩ k)
    * Wt (ix2 (n0 := 128) (n1 := 64) k ⟨(i 1).val, (i 1).isLt⟩)

/-- The first layer's combination, rectified: max(agg + h · inv + b, 0), the column inv read at the entry's node and
    the row b at its feature. -/
def comb128relu (agg h : N128.Idx → EReal) (inv : N1.Idx → EReal) (b : B128.Idx → EReal) : N128.Idx → EReal := fun i =>
  max (agg i + h i * inv (ix2 (n0 := 50000) (n1 := 1) ⟨(i 0).val, (i 0).isLt⟩ ⟨0, Nat.one_pos⟩)
    + b (ix2 (n0 := 1) (n1 := 128) ⟨0, Nat.one_pos⟩ ⟨(i 1).val, (i 1).isLt⟩)) zero32

/-- The second layer's combination: agg + h · inv + b, the column inv read at the entry's node and the row b at its
    feature. -/
def comb64 (agg h : N64.Idx → EReal) (inv : N1.Idx → EReal) (b : B64.Idx → EReal) : N64.Idx → EReal := fun i =>
  agg i + h i * inv (ix2 (n0 := 50000) (n1 := 1) ⟨(i 0).val, (i 0).isLt⟩ ⟨0, Nat.one_pos⟩)
    + b (ix2 (n0 := 1) (n1 := 64) ⟨0, Nat.one_pos⟩ ⟨(i 1).val, (i 1).isLt⟩)

end Cert.Gcn

end
-- ==== Proof.RegMm1.lean ====
import proofs.«175359_j23003844838068_1_alg».proof.Proof.Gen.KernelIdeal.Frame
import proofs.«175359_j23003844838068_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Mm1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a whole-block rectangle, as a constant function. -/
theorem off_zero : (![0, 0] : Fin 2 → Nat) = fun _ => 0 := funext fun a => by fin_cases a <;> rfl

/-! ## The contraction's index maps, axis by axis -/

theorem lhs_ax0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_ax1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_ax0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_ax1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## The body's one store at an index -/

/-- Row `p`, column `q` of the stored block is the sum over `k` of the staged row block at `(p, k)` times the staged
    weight at `(k, q)`: the narrowing to bf16 is the identity on the ideal values, and the accumulator is zero. -/
theorem pay_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_ax0 _ _
    | ⟨1, _⟩ => exact (lhs_ax1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_ax0 _ _).trans hk
    | ⟨1, _⟩ => exact rhs_ax1 _ _)
  rw [el, er, truncf_apply, truncf_apply]

/-! ## From blocks to the array -/

/-- The printed index maps, decided once over the ten grid points: the row block and the output block move with the
    point along the rows, the weight block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One entry of a stored block against one entry of the whole product: when row `p` of the staged row block is row
    `i 0` of `A` and column `q` of the staged weight is column `i 1` of `Wt`, the stored `(p, q)` is the product's `i`. -/
theorem point_eq (A : Cert.Gcn.N128.Idx → EReal) (Wt : Cert.Gcn.W128.Idx → EReal)
    (x0 : Vec Ideal S5000x128 .f32) (x1 : Vec Ideal S128x128 .f32) (p : Fin 5000) (q : Fin 128) (i : Cert.Gcn.N128.Idx)
    (h0 : ∀ k : Fin 128, x0 (ix2 p k) = A (ix2 (n0 := 50000) (n1 := 128) ⟨(i 0).val, (i 0).isLt⟩ k))
    (h1 : ∀ k : Fin 128, x1 (ix2 k q) = Wt (ix2 (n0 := 128) (n1 := 128) k ⟨(i 1).val, (i 1).isLt⟩)) :
    k0_pay1 (F := Ideal) x0 x1 (ix2 p q) = Cert.Gcn.mm128 A Wt i := by
  rw [pay_apply]
  unfold Cert.Gcn.mm128
  exact Finset.sum_congr rfl fun k _ => by rw [h0 k, h1 k]

/-- What point `t` writes back is block `t` of the product of the two argument arrays. -/
theorem flushed_eq (c : Dev nD) (t : Fin cfg0.N) :
    (dat0 (F := Ideal) V c).flushed 2 t
      = ((cfg0.win 2).blk t).view.read (Elt Ideal) (Cert.Gcn.mm128 (V c main_arg0) (V c main_arg2)) := by
  show (cfg0.win 2).cut (grid0.coords t) ((dat0 V c).after 2 t) = _
  rw [after0_2]
  unfold out0_2
  rw [View.canon_unit_zero off_zero]
  simp only [View.ld_unit_zero (S := S5000x128) off_zero, View.ld_unit_zero (S := S128x128) off_zero]
  obtain ⟨e00, e01, e10, e11, e20, e21⟩ := idx_facts t
  refine funext fun (j : S5000x128.Idx) => ?_
  obtain ⟨p, q, rfl⟩ : ∃ (p : Fin 5000) (q : Fin 128), j = ix2 p q := ⟨j 0, j 1, eq_ix2 j⟩
  show k0_pay1 (F := Ideal) (iblk0 V c 0 t) (iblk0 V c 1 t) (ix2 p q)
    = Cert.Gcn.mm128 (V c main_arg0) (V c main_arg2) (((cfg0.win 2).blk t).view.emb (ix2 p q))
  refine point_eq _ _ _ _ p q _ (fun k => ?_) (fun k => ?_)
  · show V c main_arg0 (((cfg0.win 0).blk t).view.emb (ix2 p k)) = V c main_arg0 _
    refine congrArg _ (funext fun a => Fin.ext ?_)
    match a with
    | ⟨0, _⟩ =>
      show win0_0.index t (0 : Fin 2) * 5000 + 1 * p.val = win0_2.index t (0 : Fin 2) * 5000 + 1 * p.val
      omega
    | ⟨1, _⟩ =>
      show win0_0.index t (1 : Fin 2) * 128 + 1 * k.val = k.val
      omega
  · show V c main_arg2 (((cfg0.win 1).blk t).view.emb (ix2 k q)) = V c main_arg2 _
    refine congrArg _ (funext fun a => Fin.ext ?_)
    match a with
    | ⟨0, _⟩ =>
      show win0_1.index t (0 : Fin 2) * 128 + 1 * k.val = k.val
      omega
    | ⟨1, _⟩ =>
      show win0_1.index t (1 : Fin 2) * 128 + 1 * q.val = win0_2.index t (1 : Fin 2) * 128 + 1 * q.val
      omega

/-- An index of the array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- The ten row blocks tile the array: row `r` is in the block of point `r / 5000`. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have ht : (i 0).val / 5000 < cfg0.N := by show (i 0).val / 5000 < 10; omega
  obtain ⟨-, -, -, -, e20, e21⟩ := idx_facts ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e20]
    show (i 0).val / 5000 * 5000 ≤ (i 0).val ∧ (i 0).val < (i 0).val / 5000 * 5000 + 5000
    omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    omega

theorem final (c : Dev nD) :
    (dat0 (F := Ideal) V c).arrAt 2 cfg0.N = Cert.Gcn.mm128 (V c main_arg0) (V c main_arg2) :=
  (dat0 (F := Ideal) V c).arrAt_eq_of_cover 2 (Cert.Gcn.mm128 (V c main_arg0) (V c main_arg2))
    (fun t _ => flushed_eq V c t) cover

end Cert.KernelIdeal.Mm1
end
-- ==== Proof.RegComb1.lean ====
/-
  The first layer's combination, region by region of its grid.

  The region runs over ten grid points. Point t stages rows 5000·t … 5000·t + 4999 of the aggregated features, of the
  transformed features and of the inverse-degree column, together with the whole bias row, and writes back the same
  rows of the output: at row p and feature q of the block, max(agg + h · inv + b, 0) with the column read at p and the
  row at q. A block's element (p, q) sits in the array at (5000·t + p, q), so each written block is a block of the
  one whole-array function; the ten blocks tile the 50000 rows (row r is in the block of point r / 5000), and the
  output array after the run is that function of the four arrays.
-/
import proofs.«175359_j23003844838068_1_alg».proof.Proof.Gen.KernelIdeal.Frame
import proofs.«175359_j23003844838068_1_alg».proof.Proof.Spec
import proofs.«175359_j23003844838068_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Comb1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body's rectangles all start at the origin of their buffers. -/
theorem origin : (![0, 0] : Fin 2 → Nat) = fun _ => 0 :=
  funext fun a => by match a with | ⟨0, _⟩ => rfl | ⟨1, _⟩ => rfl

/-- The stored value at row p, feature q of a block: agg + h · inv + b cut off below at zero, the column read at its
    row p and the bias row at its feature q. -/
theorem pay_apply (x0 x1 : Vec Ideal S5000x128 .f32) (x2 : Vec Ideal S5000x1 .f32) (x3 : Vec Ideal S1x128 .f32)
    (p : Fin 5000) (q : Fin 128) :
    k1_pay1 x0 x1 x2 x3 (ix2 p q)
      = max (x0 (ix2 p q) + x1 (ix2 p q) * x2 (ix2 p (0 : Fin 1)) + x3 (ix2 (0 : Fin 1) q))
          (Ideal.ofBits .f32 0x00000000#32) := by
  unfold k1_pay1
  rw [maximumf_apply, addf_apply, addf_apply, mulf_apply, broadcast_apply]
  rw [shapeCast_self, shapeCast_self, shapeCast_self, shapeCast_self]
  rw [RowOps.broadcastTo_a1_ab_apply, broadcastTo_1b_ab_apply]
  rfl

/-- The stored value at (p, q) of a block is the layer's combination at array index i, once each staged entry it reads
    is the array entry the combination reads at i. -/
theorem pay_eq_comb (x0 x1 : Vec Ideal S5000x128 .f32) (x2 : Vec Ideal S5000x1 .f32) (x3 : Vec Ideal S1x128 .f32)
    (A0 A1 : Cert.Gcn.N128.Idx → EReal) (A2 : Cert.Gcn.N1.Idx → EReal) (A3 : Cert.Gcn.B128.Idx → EReal)
    (p : Fin 5000) (q : Fin 128) (i : Cert.Gcn.N128.Idx)
    (h0 : x0 (ix2 p q) = A0 i) (h1 : x1 (ix2 p q) = A1 i)
    (h2 : x2 (ix2 p (0 : Fin 1)) = A2 (ix2 (n0 := 50000) (n1 := 1) ⟨(i 0).val, (i 0).isLt⟩ ⟨0, Nat.one_pos⟩))
    (h3 : x3 (ix2 (0 : Fin 1) q) = A3 (ix2 (n0 := 1) (n1 := 128) ⟨0, Nat.one_pos⟩ ⟨(i 1).val, (i 1).isLt⟩)) :
    k1_pay1 x0 x1 x2 x3 (ix2 p q) = Cert.Gcn.comb128relu A0 A1 A2 A3 i := by
  rw [pay_apply, h0, h1, h2, h3]
  rfl

/-- The index maps over the grid: point t stages block (t, 0) of the three node arrays and of the output, and the one
    block (0, 0) of the bias row; the grid has ten points. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ t.val < 10 :=
  (by decide +kernel : ∀ t : Fin grid1.N, _)

/-- What point t writes back is block t of the layer's combination of the four arrays as the region finds them. -/
theorem flushed_eq (c : Dev nD) (t : Fin cfg1.N) :
    (dat1 (F := Ideal) V c).flushed 4 t
      = ((cfg1.win 4).blk t).view.read (Elt Ideal)
          (Cert.Gcn.comb128relu (V c main_v42) (V c main_v30) (V c main_v29) (V c main_v43)) := by
  show (cfg1.win 4).cut (grid1.coords t) ((dat1 (F := Ideal) V c).after 4 t) = _
  rw [after1_4]
  unfold out1_4
  rw [View.canon_unit_zero origin]
  simp only [View.ld_unit_zero (S := S5000x128) origin, View.ld_unit_zero (S := S5000x1) origin,
    View.ld_unit_zero (S := S1x128) origin]
  obtain ⟨e00, e01, e10, e11, e20, e21, e30, e31, e40, e41, -⟩ := index_facts t
  funext j
  have hj : (cfg1.win 4).xinj (grid1.coords t) j
      = ix2 (⟨(j 0).val, (j 0).isLt⟩ : Fin 5000) (⟨(j 1).val, (j 1).isLt⟩ : Fin 128) :=
    funext fun a => by match a with | ⟨0, _⟩ => rfl | ⟨1, _⟩ => rfl
  show k1_pay1 (iblk1 V c 0 t) (iblk1 V c 1 t) (iblk1 V c 2 t) (iblk1 V c 3 t) ((cfg1.win 4).xinj (grid1.coords t) j)
    = Cert.Gcn.comb128relu (V c main_v42) (V c main_v30) (V c main_v29) (V c main_v43) (((cfg1.win 4).blk t).view.emb j)
  rw [hj]
  refine pay_eq_comb _ _ _ _ _ _ _ _ _ _ _ ?_ ?_ ?_ ?_
  · show V c main_v42 (((cfg1.win 0).blk t).view.emb
        (ix2 (⟨(j 0).val, (j 0).isLt⟩ : Fin 5000) (⟨(j 1).val, (j 1).isLt⟩ : Fin 128))) = _
    refine congrArg (V c main_v42) (funext fun a => Fin.ext ?_)
    match a with
    | ⟨0, _⟩ =>
      show win1_0.index t (0 : Fin 2) * 5000 + 1 * (j 0).val = win1_4.index t (0 : Fin 2) * 5000 + 1 * (j 0).val
      omega
    | ⟨1, _⟩ =>
      show win1_0.index t (1 : Fin 2) * 128 + 1 * (j 1).val = win1_4.index t (1 : Fin 2) * 128 + 1 * (j 1).val
      omega
  · show V c main_v30 (((cfg1.win 1).blk t).view.emb
        (ix2 (⟨(j 0).val, (j 0).isLt⟩ : Fin 5000) (⟨(j 1).val, (j 1).isLt⟩ : Fin 128))) = _
    refine congrArg (V c main_v30) (funext fun a => Fin.ext ?_)
    match a with
    | ⟨0, _⟩ =>
      show win1_1.index t (0 : Fin 2) * 5000 + 1 * (j 0).val = win1_4.index t (0 : Fin 2) * 5000 + 1 * (j 0).val
      omega
    | ⟨1, _⟩ =>
      show win1_1.index t (1 : Fin 2) * 128 + 1 * (j 1).val = win1_4.index t (1 : Fin 2) * 128 + 1 * (j 1).val
      omega
  · show V c main_v29 (((cfg1.win 2).blk t).view.emb
        (ix2 (⟨(j 0).val, (j 0).isLt⟩ : Fin 5000) (0 : Fin 1))) = _
    refine congrArg (V c main_v29) (funext fun a => Fin.ext ?_)
    match a with
    | ⟨0, _⟩ =>
      show win1_2.index t (0 : Fin 2) * 5000 + 1 * (j 0).val = win1_4.index t (0 : Fin 2) * 5000 + 1 * (j 0).val
      omega
    | ⟨1, _⟩ =>
      show win1_2.index t (1 : Fin 2) * 1 + 1 * 0 = 0
      omega
  · show V c main_v43 (((cfg1.win 3).blk t).view.emb
        (ix2 (0 : Fin 1) (⟨(j 1).val, (j 1).isLt⟩ : Fin 128))) = _
    refine congrArg (V c main_v43) (funext fun a => Fin.ext ?_)
    match a with
    | ⟨0, _⟩ =>
      show win1_3.index t (0 : Fin 2) * 1 + 1 * 0 = 0
      omega
    | ⟨1, _⟩ =>
      show win1_3.index t (1 : Fin 2) * 128 + 1 * (j 1).val = win1_4.index t (1 : Fin 2) * 128 + 1 * (j 1).val
      omega

/-- An index of the output array is in point t's block iff each coordinate is in the block's range on its axis. -/
theorem mem_blk (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v44).slice (win1_4.rect t)).set ↔ _
  rw [View.set_slice_whole, Rect.mem_set_unit]
  exact Iff.rfl

/-- The ten blocks tile the output array: row r lies in the block of point r / 5000, and every point writes back. -/
theorem cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have ht : (i 0).val / 5000 < cfg1.N := by show (i 0).val / 5000 < 10; omega
  obtain ⟨-, -, -, -, -, -, -, -, e40, e41, -⟩ := index_facts ⟨(i 0).val / 5000, ht⟩
  refine ⟨⟨(i 0).val / 5000, ht⟩, flush1_4 _, ?_⟩
  rw [mem_blk]
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    rw [e40]
    show (i 0).val / 5000 * 5000 ≤ (i 0).val ∧ (i 0).val < (i 0).val / 5000 * 5000 + 5000
    omega
  | ⟨1, _⟩ =>
    show win1_4.index ⟨(i 0).val / 5000, ht⟩ (1 : Fin 2) * 128 ≤ (i 1).val
      ∧ (i 1).val < win1_4.index ⟨(i 0).val / 5000, ht⟩ (1 : Fin 2) * 128 + 128
    rw [e41]
    omega

/-- The output array after the region's run: the first layer's rectified combination of the aggregated features, the
    transformed features, the inverse-degree column and the bias row, as the region finds them. -/
theorem final (c : Dev nD) :
    (dat1 (F := Ideal) V c).arrAt 4 cfg1.N = Cert.Gcn.comb128relu (V c main_v42) (V c main_v30) (V c main_v29) (V c main_v43) :=
  (dat1 (F := Ideal) V c).arrAt_eq_of_cover 4 _ (fun t _ => flushed_eq V c t) cover

end Cert.KernelIdeal.Comb1
end
-- ==== Proof.RegMm2.lean ====
import proofs.«175359_j23003844838068_1_alg».proof.Proof.Gen.KernelIdeal.Frame
import proofs.«175359_j23003844838068_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Mm2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a whole-block rectangle, as a constant function. -/
theorem off_zero : (![0, 0] : Fin 2 → Nat) = fun _ => 0 := funext fun a => by fin_cases a <;> rfl

/-! ## The contraction's index maps, axis by axis -/

theorem lhs_ax0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_ax1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_ax0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_ax1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-! ## The body's one store at an index -/

/-- Row `p`, column `q` of the stored block is the sum over `k` of the staged row block at `(p, k)` times the staged
    weight at `(k, q)`: the cast to the same shape and the narrowing to bf16 are the identity on the ideal values, and
    the accumulator is zero. -/
theorem pay_apply (x0 : Vec Ideal S5000x128 .f32) (x1 : Vec Ideal S128x64 .f32) (p : Fin 5000) (q : Fin 64) :
    k2_pay1 (F := Ideal) x0 x1 (ix2 p q) = ∑ k : Fin 128, x0 (ix2 p k) * x1 (ix2 k q) := by
  unfold k2_pay1
  refine (Ideal.matmul_constant_zero_apply dot_S5000x128_S128x64_S5000x64_1_0_0_1_n_n none _ _ (ix2 p q)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhs_ax0 _ _
    | ⟨1, _⟩ => exact (lhs_ax1 _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (rhs_ax0 _ _).trans hk
    | ⟨1, _⟩ => exact rhs_ax1 _ _)
  rw [el, er, truncf_apply, truncf_apply, shapeCast_self]

/-! ## From blocks to the array -/

/-- The printed index maps, decided once over the ten grid points: the row block and the output block move with the
    point along the rows, the weight block stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- One entry of a stored block against one entry of the whole product: when row `p` of the staged row block is row
    `i 0` of `A` and column `q` of the staged weight is column `i 1` of `Wt`, the stored `(p, q)` is the product's `i`. -/
theorem point_eq (A : Cert.Gcn.N128.Idx → EReal) (Wt : Cert.Gcn.W64.Idx → EReal)
    (x0 : Vec Ideal S5000x128 .f32) (x1 : Vec Ideal S128x64 .f32) (p : Fin 5000) (q : Fin 64) (i : Cert.Gcn.N64.Idx)
    (h0 : ∀ k : Fin 128, x0 (ix2 p k) = A (ix2 (n0 := 50000) (n1 := 128) ⟨(i 0).val, (i 0).isLt⟩ k))
    (h1 : ∀ k : Fin 128, x1 (ix2 k q) = Wt (ix2 (n0 := 128) (n1 := 64) k ⟨(i 1).val, (i 1).isLt⟩)) :
    k2_pay1 (F := Ideal) x0 x1 (ix2 p q) = Cert.Gcn.mm64 A Wt i := by
  rw [pay_apply]
  unfold Cert.Gcn.mm64
  exact Finset.sum_congr rfl fun k _ => by rw [h0 k, h1 k]

/-- What point `t` writes back is block `t` of the product of the two arrays the region reads. -/
theorem flushed_eq (c : Dev nD) (t : Fin cfg2.N) :
    (dat2 (F := Ideal) V c).flushed 2 t
      = ((cfg2.win 2).blk t).view.read (Elt Ideal) (Cert.Gcn.mm64 (V c main_v44) (V c main_arg4)) := by
  show (cfg2.win 2).cut (grid2.coords t) ((dat2 V c).after 2 t) = _
  rw [after2_2]
  unfold out2_2
  rw [View.canon_unit_zero off_zero]
  simp only [View.ld_unit_zero (S := S5000x128) off_zero, View.ld_unit_zero (S := S128x64) off_zero]
  obtain ⟨e00, e01, e10, e11, e20, e21⟩ := idx_facts t
  refine funext fun (j : S5000x64.Idx) => ?_
  obtain ⟨p, q, rfl⟩ : ∃ (p : Fin 5000) (q : Fin 64), j = ix2 p q := ⟨j 0, j 1, eq_ix2 j⟩
  show k2_pay1 (F := Ideal) (iblk2 V c 0 t) (iblk2 V c 1 t) (ix2 p q)
    = Cert.Gcn.mm64 (V c main_v44) (V c main_arg4) (((cfg2.win 2).blk t).view.emb (ix2 p q))
  refine point_eq _ _ _ _ p q _ (fun k => ?_) (fun k => ?_)
  · show V c main_v44 (((cfg2.win 0).blk t).view.emb (ix2 p k)) = V c main_v44 _
    refine congrArg _ (funext fun a => Fin.ext ?_)
    match a with
    | ⟨0, _⟩ =>
      show win2_0.index t (0 : Fin 2) * 5000 + 1 * p.val = win2_2.index t (0 : Fin 2) * 5000 + 1 * p.val
      omega
    | ⟨1, _⟩ =>
      show win2_0.index t (1 : Fin 2) * 128 + 1 * k.val = k.val
      omega
  · show V c main_arg4 (((cfg2.win 1).blk t).view.emb (ix2 k q)) = V c main_arg4 _
    refine congrArg _ (funext fun a => Fin.ext ?_)
    match a with
    | ⟨0, _⟩ =>
      show win2_1.index t (0 : Fin 2) * 128 + 1 * k.val = k.val
      omega
    | ⟨1, _⟩ =>
      show win2_1.index t (1 : Fin 2) * 64 + 1 * q.val = win2_2.index t (1 : Fin 2) * 64 + 1 * q.val
      omega

/-- An index of the array is in point `t`'s block iff each coordinate is in the block's range on its axis. -/
theorem mem_blk (t : Fin cfg2.N) (i : S50000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v45).slice (win2_2.rect t)).set ↔ _
  rw [View.set_slice_whole, Rect.mem_set_unit]
  exact Iff.rfl

/-- The ten row blocks tile the array: row `r` is in the block of point `r / 5000`. -/
theorem cover (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have ht : (i 0).val / 5000 < cfg2.N := by show (i 0).val / 5000 < 10; omega
  obtain ⟨-, -, -, -, e20, e21⟩ := idx_facts ⟨(i 0).val / 5000, ht⟩
  refine ⟨⟨(i 0).val / 5000, ht⟩, flush2_2 _, ?_⟩
  rw [mem_blk]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    rw [e20]
    show (i 0).val / 5000 * 5000 ≤ (i 0).val ∧ (i 0).val < (i 0).val / 5000 * 5000 + 5000
    omega
  | ⟨1, _⟩ =>
    show win2_2.index ⟨(i 0).val / 5000, ht⟩ (1 : Fin 2) * 64 ≤ (i 1).val
      ∧ (i 1).val < win2_2.index ⟨(i 0).val / 5000, ht⟩ (1 : Fin 2) * 64 + 64
    omega

theorem final (c : Dev nD) :
    (dat2 (F := Ideal) V c).arrAt 2 cfg2.N = Cert.Gcn.mm64 (V c main_v44) (V c main_arg4) :=
  (dat2 (F := Ideal) V c).arrAt_eq_of_cover 2 (Cert.Gcn.mm64 (V c main_v44) (V c main_arg4))
    (fun t _ => flushed_eq V c t) cover

end Cert.KernelIdeal.Mm2
end
-- ==== Proof.RegComb2.lean ====
/-
  The second layer's combination, region by region of its grid.

  The region runs over ten grid points. Point t stages rows 5000·t … 5000·t + 4999 of the aggregated features, of the
  transformed features (64 wide) and of the inverse-degree column, together with the whole bias row, and writes back
  the same rows of the output: at row p and feature q of the block, agg + h · inv + b with the column read at p and the
  row at q; this layer is not rectified. A block's element (p, q) sits in the array at (5000·t + p, q), so each written
  block is a block of the one whole-array function; the ten blocks tile the 50000 rows (row r is in the block of point
  r / 5000), and the output array after the run is that function of the four arrays.
-/
import proofs.«175359_j23003844838068_1_alg».proof.Proof.Gen.KernelIdeal.Frame
import proofs.«175359_j23003844838068_1_alg».proof.Proof.Spec
import proofs.«175359_j23003844838068_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Comb2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body's rectangles all start at the origin of their buffers. -/
theorem origin : (![0, 0] : Fin 2 → Nat) = fun _ => 0 :=
  funext fun a => by match a with | ⟨0, _⟩ => rfl | ⟨1, _⟩ => rfl

/-- The stored value at row p, feature q of a block: agg + h · inv + b, the column read at its row p and the bias row
    at its feature q. -/
theorem pay_apply (x0 x1 : Vec Ideal S5000x64 .f32) (x2 : Vec Ideal S5000x1 .f32) (x3 : Vec Ideal S1x64 .f32)
    (p : Fin 5000) (q : Fin 64) :
    k3_pay1 x0 x1 x2 x3 (ix2 p q)
      = x0 (ix2 p q) + x1 (ix2 p q) * x2 (ix2 p (0 : Fin 1)) + x3 (ix2 (0 : Fin 1) q) := by
  unfold k3_pay1
  rw [addf_apply, addf_apply, mulf_apply]
  rw [shapeCast_self, shapeCast_self, shapeCast_self, shapeCast_self]
  rw [RowOps.broadcastTo_a1_ab_apply, broadcastTo_1b_ab_apply]

/-- The stored value at (p, q) of a block is the layer's combination at array index i, once each staged entry it reads
    is the array entry the combination reads at i. -/
theorem pay_eq_comb (x0 x1 : Vec Ideal S5000x64 .f32) (x2 : Vec Ideal S5000x1 .f32) (x3 : Vec Ideal S1x64 .f32)
    (A0 A1 : Cert.Gcn.N64.Idx → EReal) (A2 : Cert.Gcn.N1.Idx → EReal) (A3 : Cert.Gcn.B64.Idx → EReal)
    (p : Fin 5000) (q : Fin 64) (i : Cert.Gcn.N64.Idx)
    (h0 : x0 (ix2 p q) = A0 i) (h1 : x1 (ix2 p q) = A1 i)
    (h2 : x2 (ix2 p (0 : Fin 1)) = A2 (ix2 (n0 := 50000) (n1 := 1) ⟨(i 0).val, (i 0).isLt⟩ ⟨0, Nat.one_pos⟩))
    (h3 : x3 (ix2 (0 : Fin 1) q) = A3 (ix2 (n0 := 1) (n1 := 64) ⟨0, Nat.one_pos⟩ ⟨(i 1).val, (i 1).isLt⟩)) :
    k3_pay1 x0 x1 x2 x3 (ix2 p q) = Cert.Gcn.comb64 A0 A1 A2 A3 i := by
  rw [pay_apply, h0, h1, h2, h3]
  rfl

/-- The index maps over the grid: point t stages block (t, 0) of the three node arrays and of the output, and the one
    block (0, 0) of the bias row; the grid has ten points. -/
theorem index_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ t.val < 10 :=
  (by decide +kernel : ∀ t : Fin grid3.N, _)

/-- What point t writes back is block t of the layer's combination of the four arrays as the region finds them. -/
theorem flushed_eq (c : Dev nD) (t : Fin cfg3.N) :
    (dat3 (F := Ideal) V c).flushed 4 t
      = ((cfg3.win 4).blk t).view.read (Elt Ideal)
          (Cert.Gcn.comb64 (V c main_v57) (V c main_v45) (V c main_v29) (V c main_v58)) := by
  show (cfg3.win 4).cut (grid3.coords t) ((dat3 (F := Ideal) V c).after 4 t) = _
  rw [after3_4]
  unfold out3_4
  rw [View.canon_unit_zero origin]
  simp only [View.ld_unit_zero (S := S5000x64) origin, View.ld_unit_zero (S := S5000x1) origin,
    View.ld_unit_zero (S := S1x64) origin]
  obtain ⟨e00, e01, e10, e11, e20, e21, e30, e31, e40, e41, -⟩ := index_facts t
  funext j
  have hj : (cfg3.win 4).xinj (grid3.coords t) j
      = ix2 (⟨(j 0).val, (j 0).isLt⟩ : Fin 5000) (⟨(j 1).val, (j 1).isLt⟩ : Fin 64) :=
    funext fun a => by match a with | ⟨0, _⟩ => rfl | ⟨1, _⟩ => rfl
  show k3_pay1 (iblk3 V c 0 t) (iblk3 V c 1 t) (iblk3 V c 2 t) (iblk3 V c 3 t) ((cfg3.win 4).xinj (grid3.coords t) j)
    = Cert.Gcn.comb64 (V c main_v57) (V c main_v45) (V c main_v29) (V c main_v58) (((cfg3.win 4).blk t).view.emb j)
  rw [hj]
  refine pay_eq_comb _ _ _ _ _ _ _ _ _ _ _ ?_ ?_ ?_ ?_
  · show V c main_v57 (((cfg3.win 0).blk t).view.emb
        (ix2 (⟨(j 0).val, (j 0).isLt⟩ : Fin 5000) (⟨(j 1).val, (j 1).isLt⟩ : Fin 64))) = _
    refine congrArg (V c main_v57) (funext fun a => Fin.ext ?_)
    match a with
    | ⟨0, _⟩ =>
      show win3_0.index t (0 : Fin 2) * 5000 + 1 * (j 0).val = win3_4.index t (0 : Fin 2) * 5000 + 1 * (j 0).val
      omega
    | ⟨1, _⟩ =>
      show win3_0.index t (1 : Fin 2) * 64 + 1 * (j 1).val = win3_4.index t (1 : Fin 2) * 64 + 1 * (j 1).val
      omega
  · show V c main_v45 (((cfg3.win 1).blk t).view.emb
        (ix2 (⟨(j 0).val, (j 0).isLt⟩ : Fin 5000) (⟨(j 1).val, (j 1).isLt⟩ : Fin 64))) = _
    refine congrArg (V c main_v45) (funext fun a => Fin.ext ?_)
    match a with
    | ⟨0, _⟩ =>
      show win3_1.index t (0 : Fin 2) * 5000 + 1 * (j 0).val = win3_4.index t (0 : Fin 2) * 5000 + 1 * (j 0).val
      omega
    | ⟨1, _⟩ =>
      show win3_1.index t (1 : Fin 2) * 64 + 1 * (j 1).val = win3_4.index t (1 : Fin 2) * 64 + 1 * (j 1).val
      omega
  · show V c main_v29 (((cfg3.win 2).blk t).view.emb
        (ix2 (⟨(j 0).val, (j 0).isLt⟩ : Fin 5000) (0 : Fin 1))) = _
    refine congrArg (V c main_v29) (funext fun a => Fin.ext ?_)
    match a with
    | ⟨0, _⟩ =>
      show win3_2.index t (0 : Fin 2) * 5000 + 1 * (j 0).val = win3_4.index t (0 : Fin 2) * 5000 + 1 * (j 0).val
      omega
    | ⟨1, _⟩ =>
      show win3_2.index t (1 : Fin 2) * 1 + 1 * 0 = 0
      omega
  · show V c main_v58 (((cfg3.win 3).blk t).view.emb
        (ix2 (0 : Fin 1) (⟨(j 1).val, (j 1).isLt⟩ : Fin 64))) = _
    refine congrArg (V c main_v58) (funext fun a => Fin.ext ?_)
    match a with
    | ⟨0, _⟩ =>
      show win3_3.index t (0 : Fin 2) * 1 + 1 * 0 = 0
      omega
    | ⟨1, _⟩ =>
      show win3_3.index t (1 : Fin 2) * 64 + 1 * (j 1).val = win3_4.index t (1 : Fin 2) * 64 + 1 * (j 1).val
      omega

/-- An index of the output array is in point t's block iff each coordinate is in the block's range on its axis. -/
theorem mem_blk (t : Fin cfg3.N) (i : S50000x64.Idx) :
    i ∈ ((cfg3.win 4).blk t).view.set ↔ ∀ a : Fin 2, win3_4.index t a * S5000x64.size a ≤ (i a).val
      ∧ (i a).val < win3_4.index t a * S5000x64.size a + S5000x64.size a := by
  show i ∈ ((View.whole main_v59).slice (win3_4.rect t)).set ↔ _
  rw [View.set_slice_whole, Rect.mem_set_unit]
  exact Iff.rfl

/-- The ten blocks tile the output array: row r lies in the block of point r / 5000, and every point writes back. -/
theorem cover (i : S50000x64.Idx) :
    ∃ t : Fin cfg3.N, (cfg3.win 4).flush t = true ∧ i ∈ ((cfg3.win 4).blk t).view.set := by
  have hi0 : (i 0).val < 50000 := (i 0).isLt
  have hi1 : (i 1).val < 64 := (i 1).isLt
  have ht : (i 0).val / 5000 < cfg3.N := by show (i 0).val / 5000 < 10; omega
  obtain ⟨-, -, -, -, -, -, -, -, e40, e41, -⟩ := index_facts ⟨(i 0).val / 5000, ht⟩
  refine ⟨⟨(i 0).val / 5000, ht⟩, flush3_4 _, ?_⟩
  rw [mem_blk]
  intro a
  match a with
  | ⟨0, _⟩ =>
    show win3_4.index ⟨(i 0).val / 5000, ht⟩ (0 : Fin 2) * 5000 ≤ (i 0).val
      ∧ (i 0).val < win3_4.index ⟨(i 0).val / 5000, ht⟩ (0 : Fin 2) * 5000 + 5000
    rw [e40]
    show (i 0).val / 5000 * 5000 ≤ (i 0).val ∧ (i 0).val < (i 0).val / 5000 * 5000 + 5000
    omega
  | ⟨1, _⟩ =>
    show win3_4.index ⟨(i 0).val / 5000, ht⟩ (1 : Fin 2) * 64 ≤ (i 1).val
      ∧ (i 1).val < win3_4.index ⟨(i 0).val / 5000, ht⟩ (1 : Fin 2) * 64 + 64
    rw [e41]
    omega

/-- The output array after the region's run: the second layer's combination of the aggregated features, the
    transformed features, the inverse-degree column and the bias row, as the region finds them. -/
theorem final (c : Dev nD) :
    (dat3 (F := Ideal) V c).arrAt 4 cfg3.N = Cert.Gcn.comb64 (V c main_v57) (V c main_v45) (V c main_v29) (V c main_v58) :=
  (dat3 (F := Ideal) V c).arrAt_eq_of_cover 4 _ (fun t _ => flushed_eq V c t) cover

end Cert.KernelIdeal.Comb2
end
-- ==== Proof.RefStages.lean ====
import proofs.«175359_j23003844838068_1_alg».proof.Proof.Gen.ReferenceIdeal.Read
import proofs.«175359_j23003844838068_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.ReferenceIdeal.Stages

open Cert.ReferenceIdeal Cert.ReferenceIdeal.Read Idealize.ShloMosaic Idealize.ShloMosaic.ValueIdx

/-!
  Four stages of the reference's whole-array computation are the specification's functions. Each dense product is,
  entry by entry, the sum over the 128 summed positions of the left operand's row entry times the right operand's
  column entry. Each combination is agg + h · inv + b entry by entry (the first layer's cut off below at zero): the
  reference spreads the column of degree reciprocals over the features and the bias row over the nodes, so at entry
  (p, q) it reads the column at p and the row at q. The second layer forms its degree reciprocal by the same
  operations on the same argument as the first, so the two columns are one function.
-/

/-- The left operand's index in a row-by-column product: the entry's row and the summed position. -/
theorem lidx4_eq (i : S50000x128.Idx) (k : Fin 128) :
    lidx_main_v4 i k = ix2 (n0 := 50000) (n1 := 128) ⟨(i 0).val, (i 0).isLt⟩ k :=
  funext fun a => Fin.ext (by match a with | ⟨0, _⟩ => rfl | ⟨1, _⟩ => rfl)

/-- The right operand's index: the summed position and the entry's column. -/
theorem ridx4_eq (i : S50000x128.Idx) (k : Fin 128) :
    ridx_main_v4 i k = ix2 (n0 := 128) (n1 := 128) k ⟨(i 1).val, (i 1).isLt⟩ :=
  funext fun a => Fin.ext (by match a with | ⟨0, _⟩ => rfl | ⟨1, _⟩ => rfl)

theorem lidx54_eq (i : S50000x64.Idx) (k : Fin 128) :
    lidx_main_v54 i k = ix2 (n0 := 50000) (n1 := 128) ⟨(i 0).val, (i 0).isLt⟩ k :=
  funext fun a => Fin.ext (by match a with | ⟨0, _⟩ => rfl | ⟨1, _⟩ => rfl)

theorem ridx54_eq (i : S50000x64.Idx) (k : Fin 128) :
    ridx_main_v54 i k = ix2 (n0 := 128) (n1 := 64) k ⟨(i 1).val, (i 1).isLt⟩ :=
  funext fun a => Fin.ext (by match a with | ⟨0, _⟩ => rfl | ⟨1, _⟩ => rfl)

/-- A column [n] viewed as [n,1] and then spread over 128 features is read at the entry's node. -/
theorem col128_eq (i : S50000x128.Idx) :
    idx_main_v42 (idx_main_v43 i) = ix1 (n := 50000) ⟨(i 0).val, (i 0).isLt⟩ :=
  funext fun a => Fin.ext (by match a with | ⟨0, _⟩ => rfl)

/-- A row [n] viewed as [1,n] and then spread over the nodes is read at the entry's feature. -/
theorem row128_eq (i : S50000x128.Idx) :
    idx_main_v46 (idx_main_v47 i) = ix1 (n := 128) ⟨(i 1).val, (i 1).isLt⟩ :=
  funext fun a => Fin.ext (by match a with | ⟨0, _⟩ => rfl)

theorem col64_eq (i : S50000x64.Idx) :
    idx_main_v92 (idx_main_v93 i) = ix1 (n := 50000) ⟨(i 0).val, (i 0).isLt⟩ :=
  funext fun a => Fin.ext (by match a with | ⟨0, _⟩ => rfl)

theorem row64_eq (i : S50000x64.Idx) :
    idx_main_v96 (idx_main_v97 i) = ix1 (n := 64) ⟨(i 1).val, (i 1).isLt⟩ :=
  funext fun a => Fin.ext (by match a with | ⟨0, _⟩ => rfl)

theorem v4_eq (x0 : (⟨S50000x128, .f32⟩ : BufTy).Contents (Elt Ideal)) (x2 : (⟨S128x128, .f32⟩ : BufTy).Contents (Elt Ideal)) :
    val_main_v4 (F := Ideal) x0 x2 = Cert.Gcn.mm128 x0 x2 := by
  funext i
  rw [val_main_v4_apply]
  unfold Cert.Gcn.mm128
  refine Finset.sum_congr rfl fun k _ => ?_
  rw [lidx4_eq, ridx4_eq]

theorem v49_eq (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (inv : Cert.Gcn.N1.Idx → EReal) (b : Cert.Gcn.B128.Idx → EReal)
    (hinv : ∀ p : Fin 50000, inv (ix2 p (0 : Fin 1)) = val_main_v41 (F := Ideal) x1 (ix1 p))
    (hb : ∀ q : Fin 128, b (ix2 (0 : Fin 1) q) = x3 (ix1 q)) :
    val_main_v49 (F := Ideal) x0 x1 x2 x3
      = Cert.Gcn.comb128relu (val_main_v39 (F := Ideal) x0 x1 x2) (val_main_v4 (F := Ideal) x0 x2) inv b := by
  funext i
  have e1 : inv (ix2 (n0 := 50000) (n1 := 1) ⟨(i 0).val, (i 0).isLt⟩ ⟨0, Nat.one_pos⟩)
      = val_main_v41 (F := Ideal) x1 (idx_main_v42 (idx_main_v43 i)) :=
    (hinv ⟨(i 0).val, (i 0).isLt⟩).trans (congrArg _ (col128_eq i).symm)
  have e2 : b (ix2 (n0 := 1) (n1 := 128) ⟨0, Nat.one_pos⟩ ⟨(i 1).val, (i 1).isLt⟩)
      = x3 (idx_main_v46 (idx_main_v47 i)) :=
    (hb ⟨(i 1).val, (i 1).isLt⟩).trans (congrArg _ (row128_eq i).symm)
  rw [val_main_v49_apply, val_main_v48_apply, val_main_v45_apply, val_main_v44_apply, val_main_v43_apply,
    val_main_v42_apply, val_main_v47_apply, val_main_v46_apply, val_main_call0_v0_apply, val_main_call0_cst_apply]
  unfold Cert.Gcn.comb128relu
  rw [e1, e2]
  rfl

theorem v54_eq (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) :
    val_main_v54 (F := Ideal) x0 x1 x2 x3 x4 = Cert.Gcn.mm64 (val_main_v49 (F := Ideal) x0 x1 x2 x3) x4 := by
  funext i
  rw [val_main_v54_apply]
  unfold Cert.Gcn.mm64
  refine Finset.sum_congr rfl fun k _ => ?_
  rw [lidx54_eq, ridx54_eq]

theorem v98_eq (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (inv : Cert.Gcn.N1.Idx → EReal) (b : Cert.Gcn.B64.Idx → EReal)
    (hinv : ∀ p : Fin 50000, inv (ix2 p (0 : Fin 1)) = val_main_v91 (F := Ideal) x1 (ix1 p))
    (hb : ∀ q : Fin 64, b (ix2 (0 : Fin 1) q) = x5 (ix1 q)) :
    val_main_v98 (F := Ideal) x0 x1 x2 x3 x4 x5
      = Cert.Gcn.comb64 (val_main_v89 (F := Ideal) x0 x1 x2 x3 x4) (val_main_v54 (F := Ideal) x0 x1 x2 x3 x4) inv b := by
  funext i
  have e1 : inv (ix2 (n0 := 50000) (n1 := 1) ⟨(i 0).val, (i 0).isLt⟩ ⟨0, Nat.one_pos⟩)
      = val_main_v91 (F := Ideal) x1 (idx_main_v92 (idx_main_v93 i)) :=
    (hinv ⟨(i 0).val, (i 0).isLt⟩).trans (congrArg _ (col64_eq i).symm)
  have e2 : b (ix2 (n0 := 1) (n1 := 64) ⟨0, Nat.one_pos⟩ ⟨(i 1).val, (i 1).isLt⟩)
      = x5 (idx_main_v96 (idx_main_v97 i)) :=
    (hb ⟨(i 1).val, (i 1).isLt⟩).trans (congrArg _ (row64_eq i).symm)
  rw [val_main_v98_apply, val_main_v95_apply, val_main_v94_apply, val_main_v93_apply, val_main_v92_apply,
    val_main_v97_apply, val_main_v96_apply]
  unfold Cert.Gcn.comb64
  rw [e1, e2]
  rfl

theorem v91_eq (x1 : (⟨S2x800000, .i32⟩ : BufTy).Contents (Elt Ideal)) :
    val_main_v91 (F := Ideal) x1 = val_main_v41 (F := Ideal) x1 := by
  unfold val_main_v91 val_main_v41
  unfold val_main_v90 val_main_v40 val_main_v60 val_main_v10
  unfold val_main_cst_19 val_main_cst_8 val_main_v58 val_main_v8 val_main_v59 val_main_v9
  unfold val_main_v56 val_main_v6 val_main_v57 val_main_v7 val_main_v55 val_main_v5 val_main_cst_11 val_main_cst_1
  unfold val_main_cst_10 val_main_cst_0 val_main_v53 val_main_v3 val_main_cst_9 val_main_cst
  unfold val_main_v52 val_main_v2
  rfl

end Cert.ReferenceIdeal.Stages

end
-- ==== Proof.Fold.lean ====
/-
  The contents of the buffers at each boundary of the program, read back to the arguments. The program is: host
  operations on the edge list; X·W₁ in blocks; the sparse neighbour sum on the host; the first combination in blocks;
  (·)·W₂ in blocks; the neighbour sum again; the second combination in blocks. A dense stage replaces its output array
  by the specification's whole-array function of the arrays it was entered with and leaves every other buffer alone; a
  host stretch writes the buffers its operations name, each the operation's function of buffers written earlier, and
  leaves the rest. Walking forward, each buffer a later stage reads is therefore the corresponding stage of the
  reference applied to the same arguments: the dense stages by the specification (both sides are it), the host
  stretches because they are the same operations (the sparse sums are never opened: they are applied to equal arrays).
  The second layer of the reference recomputes the index rows and the normalisation from the edge list; these are the
  same functions of it as the first layer's.
-/
import proofs.«175359_j23003844838068_1_alg».proof.Proof.HostA
import proofs.«175359_j23003844838068_1_alg».proof.Proof.RegMm1
import proofs.«175359_j23003844838068_1_alg».proof.Proof.RegComb1
import proofs.«175359_j23003844838068_1_alg».proof.Proof.RegMm2
import proofs.«175359_j23003844838068_1_alg».proof.Proof.RegComb2
import proofs.«175359_j23003844838068_1_alg».proof.Proof.RefStages
import Idealize.ShloMosaic.Lib.ValueLayout

set_option maxRecDepth 16384

noncomputable section

namespace Cert.KernelIdeal.Fold

open Cert.KernelIdeal Cert.KernelIdeal.Gen Cert.KernelIdeal.HostV
open Idealize.ShloMosaic Idealize.ShloMosaic.TcCoe Idealize.ShloMosaic.ValueIdx Idealize.SL.Sem Idealize.ShloMosaic.StableHlo
open Cert.ReferenceIdeal.Read

variable (m : (ℓ : Loc nD τ sig) → Buf (Elt Ideal) ℓ) (ρ : Dev nD → PrngReg)

/-! ## The second layer's index rows and normalisation are the first layer's -/

theorem src_again (x1 : (⟨S2x800000, .i32⟩ : BufTy).Contents (Elt Ideal)) : val_main_v51 (F := Ideal) x1 = val_main_v1 (F := Ideal) x1 := by
  unfold val_main_v51 val_main_v50 val_main_v1 val_main_v0
  rfl

theorem dst_again (x1 : (⟨S2x800000, .i32⟩ : BufTy).Contents (Elt Ideal)) : val_main_v53 (F := Ideal) x1 = val_main_v3 (F := Ideal) x1 := by
  unfold val_main_v53 val_main_v52 val_main_v3 val_main_v2
  rfl

theorem norm_again (x1 : (⟨S2x800000, .i32⟩ : BufTy).Contents (Elt Ideal)) : val_main_v84 (F := Ideal) x1 = val_main_v34 (F := Ideal) x1 := by
  unfold val_main_v84 val_main_v34
  unfold val_main_v76 val_main_v75 val_main_v74 val_main_v73 val_main_v72 val_main_v71 val_main_c_15 val_main_v70 val_main_v69 val_main_c_14 val_main_v68 val_main_v67 val_main_v66 val_main_v65 val_main_v64 val_main_c_13 val_main_v63 val_main_v62 val_main_c_12 val_main_v61 val_main_v60 val_main_v59 val_main_cst_11 val_main_v58 val_main_v57 val_main_v56 val_main_cst_10 val_main_v55 val_main_cst_9
  unfold val_main_v26 val_main_v25 val_main_v24 val_main_v23 val_main_v22 val_main_v21 val_main_c_4 val_main_v20 val_main_v19 val_main_c_3 val_main_v18 val_main_v17 val_main_v16 val_main_v15 val_main_v14 val_main_c_2 val_main_v13 val_main_v12 val_main_c val_main_v11 val_main_v10 val_main_v9 val_main_cst_1 val_main_v8 val_main_v7 val_main_v6 val_main_cst_0 val_main_v5 val_main_cst
  rw [src_again, dst_again]

/-! ## After the first dense stage -/

theorem w2_v30 (c : Dev nD) : W2 m ρ c (Proc.devRef .tc main_v30) = val_main_v4 (F := Ideal) (X0 m c) (X2 m c) := by
  refine (W2_arr m ρ c 2).trans ?_
  refine (Mm1.final (V1 m ρ) c).trans ?_
  rw [show V1 m ρ c main_arg0 = X0 m c from w1_arg0 m ρ c, show V1 m ρ c main_arg2 = X2 m c from w1_arg2 m ρ c]
  exact (Cert.ReferenceIdeal.Stages.v4_eq _ _).symm
theorem w2_v1 (c : Dev nD) : W2 m ρ c (Proc.devRef .tc main_v1) = val_main_v1 (F := Ideal) (X1 m c) :=
  (W2_of_ne m ρ c main_v1 (by decide)).trans (w1_v1 m ρ c)
theorem w2_v3 (c : Dev nD) : W2 m ρ c (Proc.devRef .tc main_v3) = val_main_v3 (F := Ideal) (X1 m c) :=
  (W2_of_ne m ρ c main_v3 (by decide)).trans (w1_v3 m ρ c)
theorem w2_v26 (c : Dev nD) : W2 m ρ c (Proc.devRef .tc main_v26) = val_main_v34 (F := Ideal) (X1 m c) :=
  (W2_of_ne m ρ c main_v26 (by decide)).trans (w1_v26 m ρ c)
theorem w2_v29 (c : Dev nD) : W2 m ρ c (Proc.devRef .tc main_v29) = shapeCast S50000x1 (val_main_v41 (F := Ideal) (X1 m c)) shapeCasts_S50000_S50000x1 :=
  (W2_of_ne m ρ c main_v29 (by decide)).trans (w1_v29 m ρ c)
theorem w2_arg3 (c : Dev nD) : W2 m ρ c (Proc.devRef .tc main_arg3) = X3 m c :=
  (W2_of_ne m ρ c main_arg3 (by decide)).trans (w1_arg3 m ρ c)
theorem w2_arg4 (c : Dev nD) : W2 m ρ c (Proc.devRef .tc main_arg4) = X4 m c :=
  (W2_of_ne m ρ c main_arg4 (by decide)).trans (w1_arg4 m ρ c)
theorem w2_arg5 (c : Dev nD) : W2 m ρ c (Proc.devRef .tc main_arg5) = X5 m c :=
  (W2_of_ne m ρ c main_arg5 (by decide)).trans (w1_arg5 m ρ c)

/-! ## After the second host stretch: the first neighbour sum and the first bias as a row -/

set_option maxHeartbeats 4000000 in
theorem w3_v42 (c : Dev nD) : W3 m ρ c (Proc.devRef .tc main_v42) = val_main_v39 (F := Ideal) (X0 m c) (X1 m c) (X2 m c) := by
  show StableHlo.after hostOps1 (W2 m ρ c) (Proc.devRef .tc main_v42) = _
  after_results_simp
  rw [w2_v30 m ρ c, w2_v1 m ρ c, w2_v3 m ρ c, w2_v26 m ρ c]
  unfold val_main_v39 val_main_v38 val_main_v37 val_main_cst_7 val_main_v36 val_main_v35 val_main_v33 val_main_v32 val_main_v31 val_main_v30 val_main_v29 val_main_c_6 val_main_v28 val_main_v27 val_main_c_5
  rfl

theorem w3_v43 (c : Dev nD) : W3 m ρ c (Proc.devRef .tc main_v43) = shapeCast S1x128 (X3 m c) shapeCasts_S128_S1x128 := by
  show StableHlo.after hostOps1 (W2 m ρ c) (Proc.devRef .tc main_v43) = _
  after_results_simp
  rw [w2_arg3 m ρ c]
  rfl
theorem w3_v30 (c : Dev nD) : W3 m ρ c (Proc.devRef .tc main_v30) = val_main_v4 (F := Ideal) (X0 m c) (X2 m c) := by
  show StableHlo.after hostOps1 (W2 m ρ c) (Proc.devRef .tc main_v30) = _
  after_results_simp
  exact w2_v30 m ρ c
theorem w3_v1 (c : Dev nD) : W3 m ρ c (Proc.devRef .tc main_v1) = val_main_v1 (F := Ideal) (X1 m c) := by
  show StableHlo.after hostOps1 (W2 m ρ c) (Proc.devRef .tc main_v1) = _
  after_results_simp
  exact w2_v1 m ρ c
theorem w3_v3 (c : Dev nD) : W3 m ρ c (Proc.devRef .tc main_v3) = val_main_v3 (F := Ideal) (X1 m c) := by
  show StableHlo.after hostOps1 (W2 m ρ c) (Proc.devRef .tc main_v3) = _
  after_results_simp
  exact w2_v3 m ρ c
theorem w3_v26 (c : Dev nD) : W3 m ρ c (Proc.devRef .tc main_v26) = val_main_v34 (F := Ideal) (X1 m c) := by
  show StableHlo.after hostOps1 (W2 m ρ c) (Proc.devRef .tc main_v26) = _
  after_results_simp
  exact w2_v26 m ρ c
theorem w3_v29 (c : Dev nD) : W3 m ρ c (Proc.devRef .tc main_v29) = shapeCast S50000x1 (val_main_v41 (F := Ideal) (X1 m c)) shapeCasts_S50000_S50000x1 := by
  show StableHlo.after hostOps1 (W2 m ρ c) (Proc.devRef .tc main_v29) = _
  after_results_simp
  exact w2_v29 m ρ c
theorem w3_arg4 (c : Dev nD) : W3 m ρ c (Proc.devRef .tc main_arg4) = X4 m c := by
  show StableHlo.after hostOps1 (W2 m ρ c) (Proc.devRef .tc main_arg4) = _
  after_results_simp
  exact w2_arg4 m ρ c
theorem w3_arg5 (c : Dev nD) : W3 m ρ c (Proc.devRef .tc main_arg5) = X5 m c := by
  show StableHlo.after hostOps1 (W2 m ρ c) (Proc.devRef .tc main_arg5) = _
  after_results_simp
  exact w2_arg5 m ρ c

/-! ## After the first combination -/

theorem w4_v44 (c : Dev nD) : W4 m ρ c (Proc.devRef .tc main_v44) = val_main_v49 (F := Ideal) (X0 m c) (X1 m c) (X2 m c) (X3 m c) := by
  refine (W4_arr m ρ c 4).trans ?_
  refine (Comb1.final (V3 m ρ) c).trans ?_
  rw [show V3 m ρ c main_v42 = _ from w3_v42 m ρ c, show V3 m ρ c main_v30 = _ from w3_v30 m ρ c,
    show V3 m ρ c main_v29 = _ from w3_v29 m ρ c, show V3 m ρ c main_v43 = _ from w3_v43 m ρ c]
  exact (Cert.ReferenceIdeal.Stages.v49_eq _ _ _ _ _ _
    (fun p => RowOps.shapeCast_a_a1_apply _ _ p 0) (fun q => shapeCast_a_1a_apply _ _ 0 q)).symm
theorem w4_v1 (c : Dev nD) : W4 m ρ c (Proc.devRef .tc main_v1) = val_main_v1 (F := Ideal) (X1 m c) :=
  (W4_of_ne m ρ c main_v1 (by decide)).trans (w3_v1 m ρ c)
theorem w4_v3 (c : Dev nD) : W4 m ρ c (Proc.devRef .tc main_v3) = val_main_v3 (F := Ideal) (X1 m c) :=
  (W4_of_ne m ρ c main_v3 (by decide)).trans (w3_v3 m ρ c)
theorem w4_v26 (c : Dev nD) : W4 m ρ c (Proc.devRef .tc main_v26) = val_main_v34 (F := Ideal) (X1 m c) :=
  (W4_of_ne m ρ c main_v26 (by decide)).trans (w3_v26 m ρ c)
theorem w4_v29 (c : Dev nD) : W4 m ρ c (Proc.devRef .tc main_v29) = shapeCast S50000x1 (val_main_v41 (F := Ideal) (X1 m c)) shapeCasts_S50000_S50000x1 :=
  (W4_arr m ρ c 2).trans (((dat1 (V3 m ρ) c).arrAt_in 2 rfl _).trans ((A_eq1 (V3 m ρ) c 2).trans (w3_v29 m ρ c)))
theorem w4_arg4 (c : Dev nD) : W4 m ρ c (Proc.devRef .tc main_arg4) = X4 m c :=
  (W4_of_ne m ρ c main_arg4 (by decide)).trans (w3_arg4 m ρ c)
theorem w4_arg5 (c : Dev nD) : W4 m ρ c (Proc.devRef .tc main_arg5) = X5 m c :=
  (W4_of_ne m ρ c main_arg5 (by decide)).trans (w3_arg5 m ρ c)

/-! ## After the second dense stage -/

theorem w5_v45 (c : Dev nD) : W5 m ρ c (Proc.devRef .tc main_v45) = val_main_v54 (F := Ideal) (X0 m c) (X1 m c) (X2 m c) (X3 m c) (X4 m c) := by
  refine (W5_arr m ρ c 2).trans ?_
  refine (Mm2.final (V4 m ρ) c).trans ?_
  rw [show V4 m ρ c main_v44 = _ from w4_v44 m ρ c, show V4 m ρ c main_arg4 = X4 m c from w4_arg4 m ρ c]
  exact (Cert.ReferenceIdeal.Stages.v54_eq _ _ _ _ _).symm
theorem w5_v1 (c : Dev nD) : W5 m ρ c (Proc.devRef .tc main_v1) = val_main_v1 (F := Ideal) (X1 m c) :=
  (W5_of_ne m ρ c main_v1 (by decide)).trans (w4_v1 m ρ c)
theorem w5_v3 (c : Dev nD) : W5 m ρ c (Proc.devRef .tc main_v3) = val_main_v3 (F := Ideal) (X1 m c) :=
  (W5_of_ne m ρ c main_v3 (by decide)).trans (w4_v3 m ρ c)
theorem w5_v26 (c : Dev nD) : W5 m ρ c (Proc.devRef .tc main_v26) = val_main_v34 (F := Ideal) (X1 m c) :=
  (W5_of_ne m ρ c main_v26 (by decide)).trans (w4_v26 m ρ c)
theorem w5_v29 (c : Dev nD) : W5 m ρ c (Proc.devRef .tc main_v29) = shapeCast S50000x1 (val_main_v41 (F := Ideal) (X1 m c)) shapeCasts_S50000_S50000x1 :=
  (W5_of_ne m ρ c main_v29 (by decide)).trans (w4_v29 m ρ c)
theorem w5_arg5 (c : Dev nD) : W5 m ρ c (Proc.devRef .tc main_arg5) = X5 m c :=
  (W5_of_ne m ρ c main_arg5 (by decide)).trans (w4_arg5 m ρ c)

/-! ## After the third host stretch: the second neighbour sum and the second bias as a row -/

set_option maxHeartbeats 4000000 in
theorem w6_v57 (c : Dev nD) : W6 m ρ c (Proc.devRef .tc main_v57) = val_main_v89 (F := Ideal) (X0 m c) (X1 m c) (X2 m c) (X3 m c) (X4 m c) := by
  show StableHlo.after hostOps3 (W5 m ρ c) (Proc.devRef .tc main_v57) = _
  after_results_simp
  rw [w5_v45 m ρ c, w5_v1 m ρ c, w5_v3 m ρ c, w5_v26 m ρ c]
  unfold val_main_v89 val_main_v88 val_main_v87 val_main_cst_18 val_main_v86 val_main_v85 val_main_v83 val_main_v82 val_main_v81 val_main_v80 val_main_v79 val_main_c_17 val_main_v78 val_main_v77 val_main_c_16
  rw [src_again, dst_again, norm_again]
  rfl

theorem w6_v58 (c : Dev nD) : W6 m ρ c (Proc.devRef .tc main_v58) = shapeCast S1x64 (X5 m c) shapeCasts_S64_S1x64 := by
  show StableHlo.after hostOps3 (W5 m ρ c) (Proc.devRef .tc main_v58) = _
  after_results_simp
  rw [w5_arg5 m ρ c]
  rfl
theorem w6_v45 (c : Dev nD) : W6 m ρ c (Proc.devRef .tc main_v45) = val_main_v54 (F := Ideal) (X0 m c) (X1 m c) (X2 m c) (X3 m c) (X4 m c) := by
  show StableHlo.after hostOps3 (W5 m ρ c) (Proc.devRef .tc main_v45) = _
  after_results_simp
  exact w5_v45 m ρ c
theorem w6_v29 (c : Dev nD) : W6 m ρ c (Proc.devRef .tc main_v29) = shapeCast S50000x1 (val_main_v41 (F := Ideal) (X1 m c)) shapeCasts_S50000_S50000x1 := by
  show StableHlo.after hostOps3 (W5 m ρ c) (Proc.devRef .tc main_v29) = _
  after_results_simp
  exact w5_v29 m ρ c

/-! ## After the second combination: the result -/

/-- The result buffer after the whole program is the reference's last stage of the same arguments. -/
theorem result_eq (c : Dev nD) : W7 m ρ c (Proc.devRef .tc main_v59)
    = val_main_v98 (F := Ideal) (X0 m c) (X1 m c) (X2 m c) (X3 m c) (X4 m c) (X5 m c) := by
  refine (W7_arr m ρ c 4).trans ?_
  refine (Comb2.final (V6 m ρ) c).trans ?_
  rw [show V6 m ρ c main_v57 = _ from w6_v57 m ρ c, show V6 m ρ c main_v45 = _ from w6_v45 m ρ c,
    show V6 m ρ c main_v29 = _ from w6_v29 m ρ c, show V6 m ρ c main_v58 = _ from w6_v58 m ρ c]
  exact (Cert.ReferenceIdeal.Stages.v98_eq _ _ _ _ _ _ _ _
    (fun p => (RowOps.shapeCast_a_a1_apply _ _ p 0).trans (congrFun (Cert.ReferenceIdeal.Stages.v91_eq _).symm _))
    (fun q => shapeCast_a_1a_apply _ _ 0 q)).symm

end Cert.KernelIdeal.Fold

end
-- ==== Proof.lean ====
/-
  A two-layer graph convolution, its dense stages computed in row blocks and its sparse neighbour sums on the host,
  against the plain whole-array reference; equality over the extended reals.

  One layer is  out = agg + h · inv + b  with  h = X·W  (the dense feature transform), agg the sum over incoming
  edges of h(src) · norm(edge) (gather, scale, scatter-add: the sparse part, the same operations in both programs),
  inv the reciprocal degree per node and b the bias per output feature; the first layer is cut off below at zero
  and feeds the second. The blocked program forms X·W and the combination 5000 rows at a time. Neither cut changes
  a value: an entry of X·W is one sum of 128 products whichever block it is computed in, and the combination is
  entrywise. So each dense stage leaves in its output array the specification's whole-array function (Spec) of the
  arrays it was entered with — proved per stage from what each grid point writes back and the fact that the ten row
  blocks cover the array —, the reference's stages are the same functions (RefStages), and the host operations
  between the stages are the reference's own, applied to equal arrays (Fold). No law beyond commutativity and
  associativity of the sum is used, so the finiteness of the inputs is never opened.

  The three frames are the generated ones (the reference's is its generated run with the result dropped); the ideal
  pass rewrote nothing, so `preserves` is trivial. The run of the blocked program with its result buffer named is
  the launch theorem of the generated frame called again with that buffer kept in the post (KRun).
-/
import proofs.«175359_j23003844838068_1_alg».proof.Defs
import proofs.«175359_j23003844838068_1_alg».proof.Proof.Gen.Kernel
import proofs.«175359_j23003844838068_1_alg».proof.Proof.Gen.Kernel.Skeleton
import proofs.«175359_j23003844838068_1_alg».proof.Proof.Gen.Kernel.Launch
import proofs.«175359_j23003844838068_1_alg».proof.Proof.Gen.Kernel.Points
import proofs.«175359_j23003844838068_1_alg».proof.Proof.Gen.Kernel.Frame
import proofs.«175359_j23003844838068_1_alg».proof.Proof.Gen.KernelIdeal
import proofs.«175359_j23003844838068_1_alg».proof.Proof.Gen.KernelIdeal.Skeleton
import proofs.«175359_j23003844838068_1_alg».proof.Proof.Gen.KernelIdeal.Launch
import proofs.«175359_j23003844838068_1_alg».proof.Proof.Gen.KernelIdeal.Points
import proofs.«175359_j23003844838068_1_alg».proof.Proof.Gen.KernelIdeal.Frame
import proofs.«175359_j23003844838068_1_alg».proof.Proof.Gen.ReferenceIdeal
import proofs.«175359_j23003844838068_1_alg».proof.Proof.Gen.ReferenceIdeal.Run
import proofs.«175359_j23003844838068_1_alg».proof.Proof.Gen.ReferenceIdeal.Read
import proofs.«175359_j23003844838068_1_alg».proof.Proof.Gen.Pre_finite_inputs
import proofs.«175359_j23003844838068_1_alg».proof.Proof.KRun
import proofs.«175359_j23003844838068_1_alg».proof.Proof.Fold
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Gen.frame m ρ

theorem frame_pi : Cert.frame_KernelIdeal := fun m ρ _ => Cert.KernelIdeal.Gen.frame m ρ

/-- The reference has no blocked stage: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The blocked program ends with its result at the reference's last stage of its own arguments; the reference ends
    there of its arguments; the arguments agree. -/
theorem algebraic : Cert.algebraic_KernelIdeal_ReferenceIdeal := by
  intro m ρ m' ρ' _ hagree
  refine ⟨fun c => Cert.ReferenceIdeal.Read.val_main_v98 (F := Ideal)
      (Cert.KernelIdeal.HostV.X0 m c) (Cert.KernelIdeal.HostV.X1 m c) (Cert.KernelIdeal.HostV.X2 m c)
      (Cert.KernelIdeal.HostV.X3 m c) (Cert.KernelIdeal.HostV.X4 m c) (Cert.KernelIdeal.HostV.X5 m c), ?_, ?_⟩
  · exact (θ_run Cert.KernelIdeal.defs _ _).mono
      (fun r h c => ⟨(h c).1.trans (Cert.KernelIdeal.Fold.result_eq m ρ c), (h c).2⟩)
      (Cert.KernelIdeal.RunV.run_val (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v98_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
